-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x7x2048 : Shape := ⟨3, ![8192, 7, 2048]⟩
abbrev S2x2048 : Shape := ⟨2, ![2, 2048]⟩
abbrev S3x2048 : Shape := ⟨2, ![3, 2048]⟩
abbrev S_ : Shape := ⟨0, ![]⟩

class Facts : Prop where
  bcast_S_S8192x7x2048 : S_.BroadcastsInDim S8192x7x2048 (![] : Fin 0 → Fin S8192x7x2048.rank)
  reducesTo_S8192x7x2048_S_d0_1_2 : S8192x7x2048.ReducesTo [0, 1, 2] S_
  h_S_ : 0 < S_.numel
  bcast_S_S2x2048 : S_.BroadcastsInDim S2x2048 (![] : Fin 0 → Fin S2x2048.rank)
  reducesTo_S2x2048_S_d0_1 : S2x2048.ReducesTo [0, 1] S_
  bcast_S_S3x2048 : S_.BroadcastsInDim S3x2048 (![] : Fin 0 → Fin S3x2048.rank)
  reducesTo_S3x2048_S_d0_1 : S3x2048.ReducesTo [0, 1] S_

variable [Facts]

def fn_part1 {F : FTy → Type} [FloatOps F] (main_arg4 : FVec F S3x2048 .f32) (main_v13 : IVec S_ 1) (main_v16 : IVec S3x2048 1) : IVec S_ 1 :=
  let main_c_5 : IVec S_ 1 := constantI S_ 1 1#1
  let main_v17 : IVec S_ 1 := (fun x v => Host.reduce IntOp.andi x v reducesTo_S3x2048_S_d0_1 h_S_) main_v16 main_c_5
  let main_v18 : IVec S_ 1 := andi main_v13 main_v17
  let main_v19 : FVec F S3x2048 .f32 := Host.absf main_arg4
  let main_cst_6 : FVec F S_ .f32 := constant S_ .f32 0x7F800000#32
  let main_v20 : FVec F S3x2048 .f32 := broadcastInDim S3x2048 ![] bcast_S_S3x2048 main_cst_6
  let main_v21 : IVec S3x2048 1 := cmpf .olt main_v19 main_v20
  let main_c_7 : IVec S_ 1 := constantI S_ 1 1#1
  let main_v22 : IVec S_ 1 := (fun x v => Host.reduce IntOp.andi x v reducesTo_S3x2048_S_d0_1 h_S_) main_v21 main_c_7
  let main_v23 : IVec S_ 1 := andi main_v18 main_v22
  main_v23

def fn {F : FTy → Type} [FloatOps F] (main_arg0 : FVec F S8192x7x2048 .f32) (main_arg1 : FVec F S2x2048 .f32) (main_arg2 : FVec F S2x2048 .f32) (main_arg3 : FVec F S3x2048 .f32) (main_arg4 : FVec F S3x2048 .f32) : IVec S_ 1 :=
  let main_v0 : FVec F S8192x7x2048 .f32 := Host.absf main_arg0
  let main_cst : FVec F S_ .f32 := constant S_ .f32 0x7F800000#32
  let main_v1 : FVec F S8192x7x2048 .f32 := broadcastInDim S8192x7x2048 ![] bcast_S_S8192x7x2048 main_cst
  let main_v2 : IVec S8192x7x2048 1 := cmpf .olt main_v0 main_v1
  let main_c : IVec S_ 1 := constantI S_ 1 1#1
  let main_v3 : IVec S_ 1 := (fun x v => Host.reduce IntOp.andi x v reducesTo_S8192x7x2048_S_d0_1_2 h_S_) main_v2 main_c
  let main_v4 : FVec F S2x2048 .f32 := Host.absf main_arg1
  let main_cst_0 : FVec F S_ .f32 := constant S_ .f32 0x7F800000#32
  let main_v5 : FVec F S2x2048 .f32 := broadcastInDim S2x2048 ![] bcast_S_S2x2048 main_cst_0
  let main_v6 : IVec S2x2048 1 := cmpf .olt main_v4 main_v5
  let main_c_1 : IVec S_ 1 := constantI S_ 1 1#1
  let main_v7 : IVec S_ 1 := (fun x v => Host.reduce IntOp.andi x v reducesTo_S2x2048_S_d0_1 h_S_) main_v6 main_c_1
  let main_v8 : IVec S_ 1 := andi main_v3 main_v7
  let main_v9 : FVec F S2x2048 .f32 := Host.absf main_arg2
  let main_cst_2 : FVec F S_ .f32 := constant S_ .f32 0x7F800000#32
  let main_v10 : FVec F S2x2048 .f32 := broadcastInDim S2x2048 ![] bcast_S_S2x2048 main_cst_2
  let main_v11 : IVec S2x2048 1 := cmpf .olt main_v9 main_v10
  let main_c_3 : IVec S_ 1 := constantI S_ 1 1#1
  let main_v12 : IVec S_ 1 := (fun x v => Host.reduce IntOp.andi x v reducesTo_S2x2048_S_d0_1 h_S_) main_v11 main_c_3
  let main_v13 : IVec S_ 1 := andi main_v8 main_v12
  let main_v14 : FVec F S3x2048 .f32 := Host.absf main_arg3
  let main_cst_4 : FVec F S_ .f32 := constant S_ .f32 0x7F800000#32
  let main_v15 : FVec F S3x2048 .f32 := broadcastInDim S3x2048 ![] bcast_S_S3x2048 main_cst_4
  let main_v16 : IVec S3x2048 1 := cmpf .olt main_v14 main_v15
  fn_part1 (F := F) main_arg4 main_v13 main_v16
-- ==== Kernel.lean ====
abbrev S8192x7x2048 : Shape := ⟨3, ![8192, 7, 2048]⟩
abbrev S2x2048 : Shape := ⟨2, ![2, 2048]⟩
abbrev S3x2048 : Shape := ⟨2, ![3, 2048]⟩
abbrev S8192x2048 : Shape := ⟨2, ![8192, 2048]⟩
abbrev S128x7x2048 : Shape := ⟨3, ![128, 7, 2048]⟩
abbrev S128x2048 : Shape := ⟨2, ![128, 2048]⟩
abbrev S128x6x2048 : Shape := ⟨3, ![128, 6, 2048]⟩
abbrev S1x2048 : Shape := ⟨2, ![1, 2048]⟩
abbrev S2048 : Shape := ⟨1, ![2048]⟩
abbrev S1x1x2048 : Shape := ⟨3, ![1, 1, 2048]⟩
abbrev S128x5x2048 : Shape := ⟨3, ![128, 5, 2048]⟩
abbrev S128x3x2048 : Shape := ⟨3, ![128, 3, 2048]⟩
abbrev S128x1x2048 : Shape := ⟨3, ![128, 1, 2048]⟩

abbrev nBuf : Space → Nat
  | .hbm => 6
  | .vmem => 8
  | .smem => 0
  | _ => 0

abbrev bufTy : (tb : Table) → Fin (tcTables nBuf tb) → BufTy
  | .hbm, ⟨0, _⟩ => ⟨S8192x7x2048, .f32⟩
  | .hbm, ⟨1, _⟩ => ⟨S2x2048, .f32⟩
  | .hbm, ⟨2, _⟩ => ⟨S2x2048, .f32⟩
  | .hbm, ⟨3, _⟩ => ⟨S3x2048, .f32⟩
  | .hbm, ⟨4, _⟩ => ⟨S3x2048, .f32⟩
  | .hbm, ⟨5, _⟩ => ⟨S8192x2048, .f32⟩
  | .local _ .vmem, ⟨0, _⟩ => ⟨S128x7x2048, .f32⟩
  | .local _ .vmem, ⟨1, _⟩ => ⟨S128x7x2048, .f32⟩
  | .local _ .vmem, ⟨2, _⟩ => ⟨S2x2048, .f32⟩
  | .local _ .vmem, ⟨3, _⟩ => ⟨S2x2048, .f32⟩
  | .local _ .vmem, ⟨4, _⟩ => ⟨S3x2048, .f32⟩
  | .local _ .vmem, ⟨5, _⟩ => ⟨S3x2048, .f32⟩
  | .local _ .vmem, ⟨6, _⟩ => ⟨S128x2048, .f32⟩
  | .local _ .vmem, ⟨7, _⟩ => ⟨S128x2048, .f32⟩
  | _, _ => ⟨S8192x7x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x7x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S128x7x2048_S128x7x2048_0_0_0 : ∀ a, (![0, 0, 0] : Fin 3 → Nat) a + S128x7x2048.size a ≤ S128x7x2048.size a
  h_S128x7x2048 : 0 < S128x7x2048.numel
  inb_S2x2048_S2x2048_0_0 : ∀ a, (![0, 0] : Fin 2 → Nat) a + S2x2048.size a ≤ S2x2048.size a
  h_S2x2048 : 0 < S2x2048.numel
  slices_S128x7x2048_o0_0_0_S128x6x2048 : S128x7x2048.Slices ![0, 0, 0] S128x6x2048
  slices_S2x2048_o0_0_S1x2048 : S2x2048.Slices ![0, 0] S1x2048
  shapeCasts_S1x2048_S2048 : S1x2048.ShapeCasts S2048
  shapeCasts_S2048_S1x1x2048 : S2048.ShapeCasts S1x1x2048
  broadcasts_S1x1x2048_S128x6x2048 : S1x1x2048.Broadcasts S128x6x2048
  slices_S128x7x2048_o0_1_0_S128x6x2048 : S128x7x2048.Slices ![0, 1, 0] S128x6x2048
  slices_S2x2048_o1_0_S1x2048 : S2x2048.Slices ![1, 0] S1x2048
  slices_S128x6x2048_o0_0_0_S128x5x2048 : S128x6x2048.Slices ![0, 0, 0] S128x5x2048
  broadcasts_S1x1x2048_S128x5x2048 : S1x1x2048.Broadcasts S128x5x2048
  slices_S128x6x2048_o0_1_0_S128x5x2048 : S128x6x2048.Slices ![0, 1, 0] S128x5x2048
  inb_S3x2048_S3x2048_0_0 : ∀ a, (![0, 0] : Fin 2 → Nat) a + S3x2048.size a ≤ S3x2048.size a
  h_S3x2048 : 0 < S3x2048.numel
  slices_S128x5x2048_o0_0_0_S128x3x2048 : S128x5x2048.Slices ![0, 0, 0] S128x3x2048
  slices_S3x2048_o0_0_S1x2048 : S3x2048.Slices ![0, 0] S1x2048
  broadcasts_S1x1x2048_S128x3x2048 : S1x1x2048.Broadcasts S128x3x2048
  slices_S128x5x2048_o0_1_0_S128x3x2048 : S128x5x2048.Slices ![0, 1, 0] S128x3x2048
  slices_S3x2048_o1_0_S1x2048 : S3x2048.Slices ![1, 0] S1x2048
  slices_S128x5x2048_o0_2_0_S128x3x2048 : S128x5x2048.Slices ![0, 2, 0] S128x3x2048
  slices_S3x2048_o2_0_S1x2048 : S3x2048.Slices ![2, 0] S1x2048
  slices_S128x3x2048_o0_0_0_S128x1x2048 : S128x3x2048.Slices ![0, 0, 0] S128x1x2048
  broadcasts_S1x1x2048_S128x1x2048 : S1x1x2048.Broadcasts S128x1x2048
  slices_S128x3x2048_o0_1_0_S128x1x2048 : S128x3x2048.Slices ![0, 1, 0] S128x1x2048
  slices_S128x3x2048_o0_2_0_S128x1x2048 : S128x3x2048.Slices ![0, 2, 0] S128x1x2048
  shapeCasts_S128x1x2048_S128x2048 : S128x1x2048.ShapeCasts S128x2048
  inb_S128x2048_S128x2048_0_0 : ∀ a, (![0, 0] : Fin 2 → Nat) a + S128x2048.size a ≤ S128x2048.size a
  h_S128x2048 : 0 < S128x2048.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x7x2048.size a ≤ S8192x7x2048.size a
  hwx0_0 : ∀ i : grid0.Coords, EltTy.bits .f32 = 32 ∨ (Rect.block (s := S8192x7x2048) S128x7x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x2048.size a ≤ S2x2048.size a
  hwx0_1 : ∀ i : grid0.Coords, EltTy.bits .f32 = 32 ∨ (Rect.block (s := S2x2048) S2x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x2048.size a ≤ S2x2048.size a
  hwx0_2 : ∀ i : grid0.Coords, EltTy.bits .f32 = 32 ∨ (Rect.block (s := S2x2048) S2x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x2048.size a ≤ S3x2048.size a
  hwx0_3 : ∀ i : grid0.Coords, EltTy.bits .f32 = 32 ∨ (Rect.block (s := S3x2048) S3x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x2048.size a ≤ S3x2048.size a
  hwx0_4 : ∀ i : grid0.Coords, EltTy.bits .f32 = 32 ∨ (Rect.block (s := S3x2048) S3x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x2048.size a ≤ S8192x2048.size a
  hwx0_5 : ∀ i : grid0.Coords, EltTy.bits .f32 = 32 ∨ (Rect.block (s := S8192x2048) S128x2048.size (cc0_transform_5 i) (hinb0_5 i)).WholeWords (EltTy.packing .f32)

variable [Facts₀]

abbrev win0_0 : Pipeline.Window sig grid0 :=
  Pipeline.Window.ofSpec (Memref.whole main_arg0) S128x7x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S128x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x7x2048 : Shape := ⟨3, ![8192, 7, 2048]⟩
abbrev S2x2048 : Shape := ⟨2, ![2, 2048]⟩
abbrev S3x2048 : Shape := ⟨2, ![3, 2048]⟩
abbrev S8192x6x2048 : Shape := ⟨3, ![8192, 6, 2048]⟩
abbrev S1x2048 : Shape := ⟨2, ![1, 2048]⟩
abbrev S2048 : Shape := ⟨1, ![2048]⟩
abbrev S1x1x2048 : Shape := ⟨3, ![1, 1, 2048]⟩
abbrev S8192x5x2048 : Shape := ⟨3, ![8192, 5, 2048]⟩
abbrev S8192x3x2048 : Shape := ⟨3, ![8192, 3, 2048]⟩
abbrev S8192x1x2048 : Shape := ⟨3, ![8192, 1, 2048]⟩
abbrev S8192x2048 : Shape := ⟨2, ![8192, 2048]⟩

abbrev nBuf : Space → Nat
  | .hbm => 76
  | .vmem => 0
  | .smem => 0
  | _ => 0

abbrev bufTy : (tb : Table) → Fin (tcTables nBuf tb) → BufTy
  | .hbm, ⟨0, _⟩ => ⟨S8192x7x2048, .f32⟩
  | .hbm, ⟨1, _⟩ => ⟨S2x2048, .f32⟩
  | .hbm, ⟨2, _⟩ => ⟨S2x2048, .f32⟩
  | .hbm, ⟨3, _⟩ => ⟨S3x2048, .f32⟩
  | .hbm, ⟨4, _⟩ => ⟨S3x2048, .f32⟩
  | .hbm, ⟨5, _⟩ => ⟨S8192x6x2048, .f32⟩
  | .hbm, ⟨6, _⟩ => ⟨S1x2048, .f32⟩
  | .hbm, ⟨7, _⟩ => ⟨S2048, .f32⟩
  | .hbm, ⟨8, _⟩ => ⟨S1x1x2048, .f32⟩
  | .hbm, ⟨9, _⟩ => ⟨S8192x6x2048, .f32⟩
  | .hbm, ⟨10, _⟩ => ⟨S8192x6x2048, .f32⟩
  | .hbm, ⟨11, _⟩ => ⟨S8192x6x2048, .f32⟩
  | .hbm, ⟨12, _⟩ => ⟨S1x2048, .f32⟩
  | .hbm, ⟨13, _⟩ => ⟨S2048, .f32⟩
  | .hbm, ⟨14, _⟩ => ⟨S1x1x2048, .f32⟩
  | .hbm, ⟨15, _⟩ => ⟨S8192x6x2048, .f32⟩
  | .hbm, ⟨16, _⟩ => ⟨S8192x6x2048, .f32⟩
  | .hbm, ⟨17, _⟩ => ⟨S8192x6x2048, .f32⟩
  | .hbm, ⟨18, _⟩ => ⟨S8192x6x2048, .f32⟩
  | .hbm, ⟨19, _⟩ => ⟨S8192x5x2048, .f32⟩
  | .hbm, ⟨20, _⟩ => ⟨S1x2048, .f32⟩
  | .hbm, ⟨21, _⟩ => ⟨S2048, .f32⟩
  | .hbm, ⟨22, _⟩ => ⟨S1x1x2048, .f32⟩
  | .hbm, ⟨23, _⟩ => ⟨S8192x5x2048, .f32⟩
  | .hbm, ⟨24, _⟩ => ⟨S8192x5x2048, .f32⟩
  | .hbm, ⟨25, _⟩ => ⟨S8192x5x2048, .f32⟩
  | .hbm, ⟨26, _⟩ => ⟨S1x2048, .f32⟩
  | .hbm, ⟨27, _⟩ => ⟨S2048, .f32⟩
  | .hbm, ⟨28, _⟩ => ⟨S1x1x2048, .f32⟩
  | .hbm, ⟨29, _⟩ => ⟨S8192x5x2048, .f32⟩
  | .hbm, ⟨30, _⟩ => ⟨S8192x5x2048, .f32⟩
  | .hbm, ⟨31, _⟩ => ⟨S8192x5x2048, .f32⟩
  | .hbm, ⟨32, _⟩ => ⟨S8192x5x2048, .f32⟩
  | .hbm, ⟨33, _⟩ => ⟨S8192x3x2048, .f32⟩
  | .hbm, ⟨34, _⟩ => ⟨S1x2048, .f32⟩
  | .hbm, ⟨35, _⟩ => ⟨S2048, .f32⟩
  | .hbm, ⟨36, _⟩ => ⟨S1x1x2048, .f32⟩
  | .hbm, ⟨37, _⟩ => ⟨S8192x3x2048, .f32⟩
  | .hbm, ⟨38, _⟩ => ⟨S8192x3x2048, .f32⟩
  | .hbm, ⟨39, _⟩ => ⟨S8192x3x2048, .f32⟩
  | .hbm, ⟨40, _⟩ => ⟨S1x2048, .f32⟩
  | .hbm, ⟨41, _⟩ => ⟨S2048, .f32⟩
  | .hbm, ⟨42, _⟩ => ⟨S1x1x2048, .f32⟩
  | .hbm, ⟨43, _⟩ => ⟨S8192x3x2048, .f32⟩
  | .hbm, ⟨44, _⟩ => ⟨S8192x3x2048, .f32⟩
  | .hbm, ⟨45, _⟩ => ⟨S8192x3x2048, .f32⟩
  | .hbm, ⟨46, _⟩ => ⟨S8192x3x2048, .f32⟩
  | .hbm, ⟨47, _⟩ => ⟨S1x2048, .f32⟩
  | .hbm, ⟨48, _⟩ => ⟨S2048, .f32⟩
  | .hbm, ⟨49, _⟩ => ⟨S1x1x2048, .f32⟩
  | .hbm, ⟨50, _⟩ => ⟨S8192x3x2048, .f32⟩
  | .hbm, ⟨51, _⟩ => ⟨S8192x3x2048, .f32⟩
  | .hbm, ⟨52, _⟩ => ⟨S8192x3x2048, .f32⟩
  | .hbm, ⟨53, _⟩ => ⟨S8192x3x2048, .f32⟩
  | .hbm, ⟨54, _⟩ => ⟨S8192x1x2048, .f32⟩
  | .hbm, ⟨55, _⟩ => ⟨S1x2048, .f32⟩
  | .hbm, ⟨56, _⟩ => ⟨S2048, .f32⟩
  | .hbm, ⟨57, _⟩ => ⟨S1x1x2048, .f32⟩
  | .hbm, ⟨58, _⟩ => ⟨S8192x1x2048, .f32⟩
  | .hbm, ⟨59, _⟩ => ⟨S8192x1x2048, .f32⟩
  | .hbm, ⟨60, _⟩ => ⟨S8192x1x2048, .f32⟩
  | .hbm, ⟨61, _⟩ => ⟨S1x2048, .f32⟩
  | .hbm, ⟨62, _⟩ => ⟨S2048, .f32⟩
  | .hbm, ⟨63, _⟩ => ⟨S1x1x2048, .f32⟩
  | .hbm, ⟨64, _⟩ => ⟨S8192x1x2048, .f32⟩
  | .hbm, ⟨65, _⟩ => ⟨S8192x1x2048, .f32⟩
  | .hbm, ⟨66, _⟩ => ⟨S8192x1x2048, .f32⟩
  | .hbm, ⟨67, _⟩ => ⟨S8192x1x2048, .f32⟩
  | .hbm, ⟨68, _⟩ => ⟨S1x2048, .f32⟩
  | .hbm, ⟨69, _⟩ => ⟨S2048, .f32⟩
  | .hbm, ⟨70, _⟩ => ⟨S1x1x2048, .f32⟩
  | .hbm, ⟨71, _⟩ => ⟨S8192x1x2048, .f32⟩
  | .hbm, ⟨72, _⟩ => ⟨S8192x1x2048, .f32⟩
  | .hbm, ⟨73, _⟩ => ⟨S8192x1x2048, .f32⟩
  | .hbm, ⟨74, _⟩ => ⟨S8192x1x2048, .f32⟩
  | .hbm, ⟨75, _⟩ => ⟨S8192x2048, .f32⟩
  | _, _ => ⟨S8192x7x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩

abbrev nD : Nat := 1
abbrev τ : Topo := Topo.v7x

variable {F : FTy → Type} [FloatOps F]

class Facts₀ : Prop where
  slices_S8192x7x2048_S8192x6x2048_0_0_0 : S8192x7x2048.Slices ![0, 0, 0] S8192x6x2048
  slices_S2x2048_S1x2048_0_0 : S2x2048.Slices ![0, 0] S1x2048
  shapeCasts_S1x2048_S2048 : S1x2048.ShapeCasts S2048
  bcast_S2048_S1x1x2048_2 : S2048.BroadcastsInDim S1x1x2048 (![2] : Fin 1 → Fin S1x1x2048.rank)
  bcast_S1x1x2048_S8192x6x2048_0_1_2 : S1x1x2048.BroadcastsInDim S8192x6x2048 (![0, 1, 2] : Fin 3 → Fin S8192x6x2048.rank)
  slices_S8192x7x2048_S8192x6x2048_0_1_0 : S8192x7x2048.Slices ![0, 1, 0] S8192x6x2048
  slices_S2x2048_S1x2048_1_0 : S2x2048.Slices ![1, 0] S1x2048
  slices_S8192x6x2048_S8192x5x2048_0_0_0 : S8192x6x2048.Slices ![0, 0, 0] S8192x5x2048
  bcast_S1x1x2048_S8192x5x2048_0_1_2 : S1x1x2048.BroadcastsInDim S8192x5x2048 (![0, 1, 2] : Fin 3 → Fin S8192x5x2048.rank)
  slices_S8192x6x2048_S8192x5x2048_0_1_0 : S8192x6x2048.Slices ![0, 1, 0] S8192x5x2048
  slices_S8192x5x2048_S8192x3x2048_0_0_0 : S8192x5x2048.Slices ![0, 0, 0] S8192x3x2048
  slices_S3x2048_S1x2048_0_0 : S3x2048.Slices ![0, 0] S1x2048
  bcast_S1x1x2048_S8192x3x2048_0_1_2 : S1x1x2048.BroadcastsInDim S8192x3x2048 (![0, 1, 2] : Fin 3 → Fin S8192x3x2048.rank)
  slices_S8192x5x2048_S8192x3x2048_0_1_0 : S8192x5x2048.Slices ![0, 1, 0] S8192x3x2048
  slices_S3x2048_S1x2048_1_0 : S3x2048.Slices ![1, 0] S1x2048
  slices_S8192x5x2048_S8192x3x2048_0_2_0 : S8192x5x2048.Slices ![0, 2, 0] S8192x3x2048
  slices_S3x2048_S1x2048_2_0 : S3x2048.Slices ![2, 0] S1x2048
  slices_S8192x3x2048_S8192x1x2048_0_0_0 : S8192x3x2048.Slices ![0, 0, 0] S8192x1x2048
  bcast_S1x1x2048_S8192x1x2048_0_1_2 : S1x1x2048.BroadcastsInDim S8192x1x2048 (![0, 1, 2] : Fin 3 → Fin S8192x1x2048.rank)
  slices_S8192x3x2048_S8192x1x2048_0_1_0 : S8192x3x2048.Slices ![0, 1, 0] S8192x1x2048
  slices_S8192x3x2048_S8192x1x2048_0_2_0 : S8192x3x2048.Slices ![0, 2, 0] S8192x1x2048
  shapeCasts_S8192x1x2048_S8192x2048 : S8192x1x2048.ShapeCasts S8192x2048

variable [Facts₀]

class Facts : Prop extends Facts₀ where

variable [Facts]
-- ==== Proof.Layers.lean ====
/-
  A depthwise sliding-window layer, read at an index.

  For an array x[b, s, e] and a small table k[r, e], a window of h taps is
      y[b, j, e] = tanh (x[b, j, e] * k[0, e] + x[b, j + 1, e] * k[1, e] (+ x[b, j + 2, e] * k[2, e])),
  the products added from left to right. Both programs of this certificate apply four such layers in a
  row (h = 2, 2, 3, 3, over 7 -> 6 -> 5 -> 3 -> 1 positions) with the products added in this same order, so no
  law of arithmetic is needed to compare them: they differ only in how they spell "row r of k laid over
  every (b, j)". On the vector unit the row is cut out, recast [1, E] -> [E] -> [1, 1, E] and broadcast; on the
  host it is cut out, recast [1, E] -> [E] and broadcast in two steps, [E] -> [1, 1, E] -> [B, L, E].

  This module states a layer once, as a function on arrays of ANY batch extent B (`conv2`, `conv3`),
  shows that each of the two spellings is that function (`vector_conv2`, `host_conv2`, ...), and shows that
  entry (b, j, e) of a layer depends only on batch row b of its operand (`conv2_rows`, `conv3_rows`): a
  layer commutes with cutting a block of rows out of the batch axis. The chain of the four layers and
  the final [B, 1, E] -> [B, E] recast inherit both facts (`chain_rows`, `squeeze_chain`).
-/
import Idealize.ShloMosaic.Lib.ValueLayout
import Idealize.ShloMosaic.Lib.ValueIdx
import Idealize.ShloMosaic.PureOps.Ideal

noncomputable section

namespace Cert.ConvChain

open Idealize.ShloMosaic Idealize.ShloMosaic.ValueIdx

/-- Position `o + j` on a longer axis. -/
def shift {m n : Nat} (o : Nat) (h : o + m ≤ n) (j : Fin m) : Fin n := ⟨o + j.val, by have := j.isLt; omega⟩

/-! ## Row r of a table laid over every (b, j): the two spellings -/

section Rows
variable {α : Type} {H B L : Nat}

/-- The vector unit's spelling: cut row `r`, recast it [1, E] -> [E] -> [1, 1, E], broadcast to [B, L, E]. -/
theorem vectorRow_apply (r : Nat) (k : (⟨2, ![H, 2048]⟩ : Shape).Idx → α)
    (h1 : (⟨2, ![H, 2048]⟩ : Shape).Slices ![r, 0] ⟨2, ![1, 2048]⟩)
    (h2 : (⟨2, ![1, 2048]⟩ : Shape).ShapeCasts ⟨1, ![2048]⟩)
    (h3 : (⟨1, ![2048]⟩ : Shape).ShapeCasts ⟨3, ![1, 1, 2048]⟩)
    (h4 : (⟨3, ![1, 1, 2048]⟩ : Shape).Broadcasts ⟨3, ![B, L, 2048]⟩)
    (b : Fin B) (j : Fin L) (e : Fin 2048) (rr : Fin H) (hr : rr.val = r) :
    broadcastTo ⟨3, ![B, L, 2048]⟩ (shapeCast ⟨3, ![1, 1, 2048]⟩ (shapeCast ⟨1, ![2048]⟩
      (extractStridedSlice ⟨2, ![1, 2048]⟩ ![r, 0] k h1) h2) h3) h4 (ix3 b j e) = k (ix2 rr e) := by
  refine (broadcastTo_apply _ h4 (ix3 b j e) (ix3 (0 : Fin 1) (0 : Fin 1) e) (fun a => ?_)).trans ?_
  · match a with
    | ⟨0, _⟩ => rfl
    | ⟨1, _⟩ => rfl
    | ⟨2, _⟩ => show e.val = if (2048 : Nat) = 1 then 0 else e.val; rw [if_neg (by decide)]
  refine (shapeCast_apply _ h3 (ix3 (0 : Fin 1) (0 : Fin 1) e) (ix1 e) ?_).trans ?_
  · rw [Shape.rowMajor_val_one, Shape.rowMajor_val_three]
    show e.val = (0 * 1 + 0) * 2048 + e.val
    omega
  refine (shapeCast_1a_a_apply _ h2 e).trans ?_
  exact slice2_axis0_apply r k h1 (0 : Fin 1) e rr (by rw [hr]; rfl)

/-- The host's spelling: cut row `r`, recast it [1, E] -> [E], broadcast [E] -> [1, 1, E] -> [B, L, E]. -/
theorem hostRow_apply (r : Nat) (k : (⟨2, ![H, 2048]⟩ : Shape).Idx → α)
    (h1 : (⟨2, ![H, 2048]⟩ : Shape).Slices ![r, 0] ⟨2, ![1, 2048]⟩)
    (h2 : (⟨2, ![1, 2048]⟩ : Shape).ShapeCasts ⟨1, ![2048]⟩)
    (h3 : (⟨1, ![2048]⟩ : Shape).BroadcastsInDim ⟨3, ![1, 1, 2048]⟩ ![2])
    (h4 : (⟨3, ![1, 1, 2048]⟩ : Shape).BroadcastsInDim ⟨3, ![B, L, 2048]⟩ ![0, 1, 2])
    (b : Fin B) (j : Fin L) (e : Fin 2048) (rr : Fin H) (hr : rr.val = r) :
    broadcastInDim ⟨3, ![B, L, 2048]⟩ ![0, 1, 2] h4 (broadcastInDim ⟨3, ![1, 1, 2048]⟩ ![2] h3 (shapeCast ⟨1, ![2048]⟩
      (extractStridedSlice ⟨2, ![1, 2048]⟩ ![r, 0] k h1) h2)) (ix3 b j e) = k (ix2 rr e) := by
  refine (broadcastInDim_apply _ h4 _ (ix3 b j e) (ix3 (0 : Fin 1) (0 : Fin 1) e) (fun a => ?_)).trans ?_
  · match a with
    | ⟨0, _⟩ => rfl
    | ⟨1, _⟩ => rfl
    | ⟨2, _⟩ => show e.val = if (2048 : Nat) = 1 then 0 else e.val; rw [if_neg (by decide)]
  refine (broadcastInDim_apply _ h3 _ (ix3 (0 : Fin 1) (0 : Fin 1) e) (ix1 e) (fun a => ?_)).trans ?_
  · match a with
    | ⟨0, _⟩ => show e.val = if (2048 : Nat) = 1 then 0 else e.val; rw [if_neg (by decide)]
  refine (shapeCast_1a_a_apply _ h2 e).trans ?_
  exact slice2_axis0_apply r k h1 (0 : Fin 1) e rr (by rw [hr]; rfl)

end Rows

/-! ## A layer as one function of its operand and its table -/

section Layers
variable {B L M : Nat}

/-- A two-tap layer at the coordinates (b, j, e). -/
def conv2At (hM : 1 + M ≤ L) (x : FVec Ideal ⟨3, ![B, L, 2048]⟩ .f32) (k : FVec Ideal ⟨2, ![2, 2048]⟩ .f32)
    (b : Fin B) (j : Fin M) (e : Fin 2048) : EReal :=
  Ideal.tanh (x (ix3 b (shift 0 (by omega) j) e) * k (ix2 (0 : Fin 2) e) + x (ix3 b (shift 1 hM j) e) * k (ix2 (1 : Fin 2) e))

/-- A two-tap layer: L positions in, M = L - 1 out. -/
def conv2 (hM : 1 + M ≤ L) (x : FVec Ideal ⟨3, ![B, L, 2048]⟩ .f32) (k : FVec Ideal ⟨2, ![2, 2048]⟩ .f32) :
    FVec Ideal ⟨3, ![B, M, 2048]⟩ .f32 := fun i => conv2At hM x k (i 0) (i 1) (i 2)

/-- A three-tap layer at the coordinates (b, j, e). -/
def conv3At (hM : 2 + M ≤ L) (x : FVec Ideal ⟨3, ![B, L, 2048]⟩ .f32) (k : FVec Ideal ⟨2, ![3, 2048]⟩ .f32)
    (b : Fin B) (j : Fin M) (e : Fin 2048) : EReal :=
  Ideal.tanh (x (ix3 b (shift 0 (by omega) j) e) * k (ix2 (0 : Fin 3) e) + x (ix3 b (shift 1 (by omega) j) e) * k (ix2 (1 : Fin 3) e)
    + x (ix3 b (shift 2 hM j) e) * k (ix2 (2 : Fin 3) e))

/-- A three-tap layer: L positions in, M = L - 2 out. -/
def conv3 (hM : 2 + M ≤ L) (x : FVec Ideal ⟨3, ![B, L, 2048]⟩ .f32) (k : FVec Ideal ⟨2, ![3, 2048]⟩ .f32) :
    FVec Ideal ⟨3, ![B, M, 2048]⟩ .f32 := fun i => conv3At hM x k (i 0) (i 1) (i 2)

theorem conv2_ix3 (hM : 1 + M ≤ L) (x : FVec Ideal ⟨3, ![B, L, 2048]⟩ .f32) (k : FVec Ideal ⟨2, ![2, 2048]⟩ .f32)
    (b : Fin B) (j : Fin M) (e : Fin 2048) : conv2 hM x k (ix3 b j e) = conv2At hM x k b j e := rfl

theorem conv3_ix3 (hM : 2 + M ≤ L) (x : FVec Ideal ⟨3, ![B, L, 2048]⟩ .f32) (k : FVec Ideal ⟨2, ![3, 2048]⟩ .f32)
    (b : Fin B) (j : Fin M) (e : Fin 2048) : conv3 hM x k (ix3 b j e) = conv3At hM x k b j e := rfl

/-- Entry (b, j, e) of a two-tap layer reads only batch row b of its operand: if row p of `xb` is row b of `x` (at
    the column e), the layers agree there. -/
theorem conv2_rows {B' : Nat} (hM : 1 + M ≤ L) (xb : FVec Ideal ⟨3, ![B', L, 2048]⟩ .f32) (x : FVec Ideal ⟨3, ![B, L, 2048]⟩ .f32)
    (k : FVec Ideal ⟨2, ![2, 2048]⟩ .f32) (p : Fin B') (b : Fin B) (e : Fin 2048)
    (h : ∀ s : Fin L, xb (ix3 p s e) = x (ix3 b s e)) (j : Fin M) :
    conv2 hM xb k (ix3 p j e) = conv2 hM x k (ix3 b j e) := by
  rw [conv2_ix3, conv2_ix3]
  unfold conv2At
  rw [h, h]

/-- The same for a three-tap layer. -/
theorem conv3_rows {B' : Nat} (hM : 2 + M ≤ L) (xb : FVec Ideal ⟨3, ![B', L, 2048]⟩ .f32) (x : FVec Ideal ⟨3, ![B, L, 2048]⟩ .f32)
    (k : FVec Ideal ⟨2, ![3, 2048]⟩ .f32) (p : Fin B') (b : Fin B) (e : Fin 2048)
    (h : ∀ s : Fin L, xb (ix3 p s e) = x (ix3 b s e)) (j : Fin M) :
    conv3 hM xb k (ix3 p j e) = conv3 hM x k (ix3 b j e) := by
  rw [conv3_ix3, conv3_ix3]
  unfold conv3At
  rw [h, h, h]

end Layers

end Cert.ConvChain

end
-- ==== Proof.LayerForms.lean ====
/-
  The two spellings of a sliding-window layer are the layer.

  `vector_conv2` / `vector_conv3`: the vector unit's text of a layer (two or three unit-stride cuts of the operand
  along the position axis, each times a row of the table recast [1, E] -> [E] -> [1, 1, E] and broadcast, the
  products added left to right, tanh) is `conv2` / `conv3`. `host_conv2` / `host_conv3`: so is the host's text
  (the same cuts, each row broadcast in two steps, the host's tanh, which at the extended reals is the same
  function). Each is read at an index (b, j, e): the cut at offset o reads position o + j, the row reads
  k[r, e], and the two sides are then the same expression.

  `chain` is the four layers in a row, `result` its one remaining position dropped; `chain_rows` says entry
  (b, 0, e) of the chain reads only batch row b of the input.
-/
import proofs.«126784_j62216896250027_1_alg».proof.Proof.Layers

noncomputable section

namespace Cert.ConvChain

open Idealize.ShloMosaic Idealize.ShloMosaic.ValueIdx

section Forms
variable {B L M : Nat}

theorem vector_conv2 (hM : 1 + M ≤ L) (x : FVec Ideal ⟨3, ![B, L, 2048]⟩ .f32) (k : FVec Ideal ⟨2, ![2, 2048]⟩ .f32)
    (hs0 : (⟨3, ![B, L, 2048]⟩ : Shape).Slices ![0, 0, 0] ⟨3, ![B, M, 2048]⟩)
    (hs1 : (⟨3, ![B, L, 2048]⟩ : Shape).Slices ![0, 1, 0] ⟨3, ![B, M, 2048]⟩)
    (hk0 : (⟨2, ![2, 2048]⟩ : Shape).Slices ![0, 0] ⟨2, ![1, 2048]⟩)
    (hk1 : (⟨2, ![2, 2048]⟩ : Shape).Slices ![1, 0] ⟨2, ![1, 2048]⟩)
    (hc1 : (⟨2, ![1, 2048]⟩ : Shape).ShapeCasts ⟨1, ![2048]⟩)
    (hc2 : (⟨1, ![2048]⟩ : Shape).ShapeCasts ⟨3, ![1, 1, 2048]⟩)
    (hb : (⟨3, ![1, 1, 2048]⟩ : Shape).Broadcasts ⟨3, ![B, M, 2048]⟩) :
    tanh (addf (mulf (extractStridedSlice ⟨3, ![B, M, 2048]⟩ ![0, 0, 0] x hs0) (broadcastTo ⟨3, ![B, M, 2048]⟩ (shapeCast ⟨3, ![1, 1, 2048]⟩ (shapeCast ⟨1, ![2048]⟩ (extractStridedSlice ⟨2, ![1, 2048]⟩ ![0, 0] k hk0) hc1) hc2) hb))
      (mulf (extractStridedSlice ⟨3, ![B, M, 2048]⟩ ![0, 1, 0] x hs1) (broadcastTo ⟨3, ![B, M, 2048]⟩ (shapeCast ⟨3, ![1, 1, 2048]⟩ (shapeCast ⟨1, ![2048]⟩ (extractStridedSlice ⟨2, ![1, 2048]⟩ ![1, 0] k hk1) hc1) hc2) hb)))
    = conv2 hM x k := by
  funext i
  obtain ⟨b, j, e, rfl⟩ : ∃ (b : Fin B) (j : Fin M) (e : Fin 2048), i = ix3 b j e := ⟨i 0, i 1, i 2, eq_ix3 i⟩
  have e0 := slice3_axis1_apply 0 x hs0 b j e (shift 0 (by omega) j) rfl
  have e1 := slice3_axis1_apply 1 x hs1 b j e (shift 1 hM j) rfl
  have r0 := vectorRow_apply 0 k hk0 hc1 hc2 hb b j e (0 : Fin 2) rfl
  have r1 := vectorRow_apply 1 k hk1 hc1 hc2 hb b j e (1 : Fin 2) rfl
  rw [conv2_ix3]
  unfold conv2At
  show Ideal.tanh (_ * _ + _ * _) = _
  rw [e0, e1, r0, r1]

theorem vector_conv3 (hM : 2 + M ≤ L) (x : FVec Ideal ⟨3, ![B, L, 2048]⟩ .f32) (k : FVec Ideal ⟨2, ![3, 2048]⟩ .f32)
    (hs0 : (⟨3, ![B, L, 2048]⟩ : Shape).Slices ![0, 0, 0] ⟨3, ![B, M, 2048]⟩)
    (hs1 : (⟨3, ![B, L, 2048]⟩ : Shape).Slices ![0, 1, 0] ⟨3, ![B, M, 2048]⟩)
    (hs2 : (⟨3, ![B, L, 2048]⟩ : Shape).Slices ![0, 2, 0] ⟨3, ![B, M, 2048]⟩)
    (hk0 : (⟨2, ![3, 2048]⟩ : Shape).Slices ![0, 0] ⟨2, ![1, 2048]⟩)
    (hk1 : (⟨2, ![3, 2048]⟩ : Shape).Slices ![1, 0] ⟨2, ![1, 2048]⟩)
    (hk2 : (⟨2, ![3, 2048]⟩ : Shape).Slices ![2, 0] ⟨2, ![1, 2048]⟩)
    (hc1 : (⟨2, ![1, 2048]⟩ : Shape).ShapeCasts ⟨1, ![2048]⟩)
    (hc2 : (⟨1, ![2048]⟩ : Shape).ShapeCasts ⟨3, ![1, 1, 2048]⟩)
    (hb : (⟨3, ![1, 1, 2048]⟩ : Shape).Broadcasts ⟨3, ![B, M, 2048]⟩) :
    tanh (addf (addf (mulf (extractStridedSlice ⟨3, ![B, M, 2048]⟩ ![0, 0, 0] x hs0) (broadcastTo ⟨3, ![B, M, 2048]⟩ (shapeCast ⟨3, ![1, 1, 2048]⟩ (shapeCast ⟨1, ![2048]⟩ (extractStridedSlice ⟨2, ![1, 2048]⟩ ![0, 0] k hk0) hc1) hc2) hb))
      (mulf (extractStridedSlice ⟨3, ![B, M, 2048]⟩ ![0, 1, 0] x hs1) (broadcastTo ⟨3, ![B, M, 2048]⟩ (shapeCast ⟨3, ![1, 1, 2048]⟩ (shapeCast ⟨1, ![2048]⟩ (extractStridedSlice ⟨2, ![1, 2048]⟩ ![1, 0] k hk1) hc1) hc2) hb)))
      (mulf (extractStridedSlice ⟨3, ![B, M, 2048]⟩ ![0, 2, 0] x hs2) (broadcastTo ⟨3, ![B, M, 2048]⟩ (shapeCast ⟨3, ![1, 1, 2048]⟩ (shapeCast ⟨1, ![2048]⟩ (extractStridedSlice ⟨2, ![1, 2048]⟩ ![2, 0] k hk2) hc1) hc2) hb)))
    = conv3 hM x k := by
  funext i
  obtain ⟨b, j, e, rfl⟩ : ∃ (b : Fin B) (j : Fin M) (e : Fin 2048), i = ix3 b j e := ⟨i 0, i 1, i 2, eq_ix3 i⟩
  have e0 := slice3_axis1_apply 0 x hs0 b j e (shift 0 (by omega) j) rfl
  have e1 := slice3_axis1_apply 1 x hs1 b j e (shift 1 (by omega) j) rfl
  have e2 := slice3_axis1_apply 2 x hs2 b j e (shift 2 hM j) rfl
  have r0 := vectorRow_apply 0 k hk0 hc1 hc2 hb b j e (0 : Fin 3) rfl
  have r1 := vectorRow_apply 1 k hk1 hc1 hc2 hb b j e (1 : Fin 3) rfl
  have r2 := vectorRow_apply 2 k hk2 hc1 hc2 hb b j e (2 : Fin 3) rfl
  rw [conv3_ix3]
  unfold conv3At
  show Ideal.tanh (_ * _ + _ * _ + _ * _) = _
  rw [e0, e1, e2, r0, r1, r2]

theorem host_conv2 (hM : 1 + M ≤ L) (x : FVec Ideal ⟨3, ![B, L, 2048]⟩ .f32) (k : FVec Ideal ⟨2, ![2, 2048]⟩ .f32)
    (hs0 : (⟨3, ![B, L, 2048]⟩ : Shape).Slices ![0, 0, 0] ⟨3, ![B, M, 2048]⟩)
    (hs1 : (⟨3, ![B, L, 2048]⟩ : Shape).Slices ![0, 1, 0] ⟨3, ![B, M, 2048]⟩)
    (hk0 : (⟨2, ![2, 2048]⟩ : Shape).Slices ![0, 0] ⟨2, ![1, 2048]⟩)
    (hk1 : (⟨2, ![2, 2048]⟩ : Shape).Slices ![1, 0] ⟨2, ![1, 2048]⟩)
    (hc1 : (⟨2, ![1, 2048]⟩ : Shape).ShapeCasts ⟨1, ![2048]⟩)
    (hc2 : (⟨1, ![2048]⟩ : Shape).BroadcastsInDim ⟨3, ![1, 1, 2048]⟩ ![2])
    (hb : (⟨3, ![1, 1, 2048]⟩ : Shape).BroadcastsInDim ⟨3, ![B, M, 2048]⟩ ![0, 1, 2]) :
    Host.tanh (addf (mulf (extractStridedSlice ⟨3, ![B, M, 2048]⟩ ![0, 0, 0] x hs0) (broadcastInDim ⟨3, ![B, M, 2048]⟩ ![0, 1, 2] hb (broadcastInDim ⟨3, ![1, 1, 2048]⟩ ![2] hc2 (shapeCast ⟨1, ![2048]⟩ (extractStridedSlice ⟨2, ![1, 2048]⟩ ![0, 0] k hk0) hc1))))
      (mulf (extractStridedSlice ⟨3, ![B, M, 2048]⟩ ![0, 1, 0] x hs1) (broadcastInDim ⟨3, ![B, M, 2048]⟩ ![0, 1, 2] hb (broadcastInDim ⟨3, ![1, 1, 2048]⟩ ![2] hc2 (shapeCast ⟨1, ![2048]⟩ (extractStridedSlice ⟨2, ![1, 2048]⟩ ![1, 0] k hk1) hc1)))))
    = conv2 hM x k := by
  funext i
  obtain ⟨b, j, e, rfl⟩ : ∃ (b : Fin B) (j : Fin M) (e : Fin 2048), i = ix3 b j e := ⟨i 0, i 1, i 2, eq_ix3 i⟩
  have e0 := slice3_axis1_apply 0 x hs0 b j e (shift 0 (by omega) j) rfl
  have e1 := slice3_axis1_apply 1 x hs1 b j e (shift 1 hM j) rfl
  have r0 := hostRow_apply 0 k hk0 hc1 hc2 hb b j e (0 : Fin 2) rfl
  have r1 := hostRow_apply 1 k hk1 hc1 hc2 hb b j e (1 : Fin 2) rfl
  rw [conv2_ix3]
  unfold conv2At
  show Ideal.tanh (_ * _ + _ * _) = _
  rw [e0, e1, r0, r1]

theorem host_conv3 (hM : 2 + M ≤ L) (x : FVec Ideal ⟨3, ![B, L, 2048]⟩ .f32) (k : FVec Ideal ⟨2, ![3, 2048]⟩ .f32)
    (hs0 : (⟨3, ![B, L, 2048]⟩ : Shape).Slices ![0, 0, 0] ⟨3, ![B, M, 2048]⟩)
    (hs1 : (⟨3, ![B, L, 2048]⟩ : Shape).Slices ![0, 1, 0] ⟨3, ![B, M, 2048]⟩)
    (hs2 : (⟨3, ![B, L, 2048]⟩ : Shape).Slices ![0, 2, 0] ⟨3, ![B, M, 2048]⟩)
    (hk0 : (⟨2, ![3, 2048]⟩ : Shape).Slices ![0, 0] ⟨2, ![1, 2048]⟩)
    (hk1 : (⟨2, ![3, 2048]⟩ : Shape).Slices ![1, 0] ⟨2, ![1, 2048]⟩)
    (hk2 : (⟨2, ![3, 2048]⟩ : Shape).Slices ![2, 0] ⟨2, ![1, 2048]⟩)
    (hc1 : (⟨2, ![1, 2048]⟩ : Shape).ShapeCasts ⟨1, ![2048]⟩)
    (hc2 : (⟨1, ![2048]⟩ : Shape).BroadcastsInDim ⟨3, ![1, 1, 2048]⟩ ![2])
    (hb : (⟨3, ![1, 1, 2048]⟩ : Shape).BroadcastsInDim ⟨3, ![B, M, 2048]⟩ ![0, 1, 2]) :
    Host.tanh (addf (addf (mulf (extractStridedSlice ⟨3, ![B, M, 2048]⟩ ![0, 0, 0] x hs0) (broadcastInDim ⟨3, ![B, M, 2048]⟩ ![0, 1, 2] hb (broadcastInDim ⟨3, ![1, 1, 2048]⟩ ![2] hc2 (shapeCast ⟨1, ![2048]⟩ (extractStridedSlice ⟨2, ![1, 2048]⟩ ![0, 0] k hk0) hc1))))
      (mulf (extractStridedSlice ⟨3, ![B, M, 2048]⟩ ![0, 1, 0] x hs1) (broadcastInDim ⟨3, ![B, M, 2048]⟩ ![0, 1, 2] hb (broadcastInDim ⟨3, ![1, 1, 2048]⟩ ![2] hc2 (shapeCast ⟨1, ![2048]⟩ (extractStridedSlice ⟨2, ![1, 2048]⟩ ![1, 0] k hk1) hc1)))))
      (mulf (extractStridedSlice ⟨3, ![B, M, 2048]⟩ ![0, 2, 0] x hs2) (broadcastInDim ⟨3, ![B, M, 2048]⟩ ![0, 1, 2] hb (broadcastInDim ⟨3, ![1, 1, 2048]⟩ ![2] hc2 (shapeCast ⟨1, ![2048]⟩ (extractStridedSlice ⟨2, ![1, 2048]⟩ ![2, 0] k hk2) hc1)))))
    = conv3 hM x k := by
  funext i
  obtain ⟨b, j, e, rfl⟩ : ∃ (b : Fin B) (j : Fin M) (e : Fin 2048), i = ix3 b j e := ⟨i 0, i 1, i 2, eq_ix3 i⟩
  have e0 := slice3_axis1_apply 0 x hs0 b j e (shift 0 (by omega) j) rfl
  have e1 := slice3_axis1_apply 1 x hs1 b j e (shift 1 (by omega) j) rfl
  have e2 := slice3_axis1_apply 2 x hs2 b j e (shift 2 hM j) rfl
  have r0 := hostRow_apply 0 k hk0 hc1 hc2 hb b j e (0 : Fin 3) rfl
  have r1 := hostRow_apply 1 k hk1 hc1 hc2 hb b j e (1 : Fin 3) rfl
  have r2 := hostRow_apply 2 k hk2 hc1 hc2 hb b j e (2 : Fin 3) rfl
  rw [conv3_ix3]
  unfold conv3At
  show Ideal.tanh (_ * _ + _ * _ + _ * _) = _
  rw [e0, e1, e2, r0, r1, r2]

end Forms

/-! ## The four layers in a row -/

section Chain
variable {B : Nat}

/-- 7 -> 6 -> 5 -> 3 -> 1 positions: two two-tap layers, then two three-tap layers. -/
def chain (x : FVec Ideal ⟨3, ![B, 7, 2048]⟩ .f32) (c1 c2 : FVec Ideal ⟨2, ![2, 2048]⟩ .f32) (c3 c4 : FVec Ideal ⟨2, ![3, 2048]⟩ .f32) :
    FVec Ideal ⟨3, ![B, 1, 2048]⟩ .f32 :=
  conv3 (L := 3) (M := 1) (by decide) (conv3 (L := 5) (M := 3) (by decide)
    (conv2 (L := 6) (M := 5) (by decide) (conv2 (L := 7) (M := 6) (by decide) x c1) c2) c3) c4

/-- The chain's one remaining position dropped: the [B, E] result. -/
def result (x : FVec Ideal ⟨3, ![B, 7, 2048]⟩ .f32) (c1 c2 : FVec Ideal ⟨2, ![2, 2048]⟩ .f32) (c3 c4 : FVec Ideal ⟨2, ![3, 2048]⟩ .f32) :
    FVec Ideal ⟨2, ![B, 2048]⟩ .f32 := fun i => chain x c1 c2 c3 c4 (ix3 (i 0) (0 : Fin 1) (i 1))

/-- Entry (b, j, e) of the chain reads only batch row b of the input. -/
theorem chain_rows {B' : Nat} (xb : FVec Ideal ⟨3, ![B', 7, 2048]⟩ .f32) (x : FVec Ideal ⟨3, ![B, 7, 2048]⟩ .f32)
    (c1 c2 : FVec Ideal ⟨2, ![2, 2048]⟩ .f32) (c3 c4 : FVec Ideal ⟨2, ![3, 2048]⟩ .f32) (p : Fin B') (b : Fin B) (e : Fin 2048)
    (h : ∀ s : Fin 7, xb (ix3 p s e) = x (ix3 b s e)) (j : Fin 1) :
    chain xb c1 c2 c3 c4 (ix3 p j e) = chain x c1 c2 c3 c4 (ix3 b j e) :=
  conv3_rows _ _ _ c4 p b e (conv3_rows _ _ _ c3 p b e (conv2_rows _ _ _ c2 p b e (conv2_rows _ xb x c1 p b e h))) j

/-- A [B, 1, E] array recast to [B, E] reads (b, 0, e) at (b, e). -/
theorem squeeze_apply {α : Type} (v : (⟨3, ![B, 1, 2048]⟩ : Shape).Idx → α)
    (h : (⟨3, ![B, 1, 2048]⟩ : Shape).ShapeCasts ⟨2, ![B, 2048]⟩) (b : Fin B) (e : Fin 2048) :
    shapeCast ⟨2, ![B, 2048]⟩ v h (ix2 b e) = v (ix3 b (0 : Fin 1) e) :=
  shapeCast_apply v h _ _ (by
    rw [Shape.rowMajor_val_three, Shape.rowMajor_val_two]
    show (b.val * 1 + 0) * 2048 + e.val = b.val * 2048 + e.val
    omega)

/-- The chain recast to [B, E] is `result`. -/
theorem squeeze_chain (x : FVec Ideal ⟨3, ![B, 7, 2048]⟩ .f32) (c1 c2 : FVec Ideal ⟨2, ![2, 2048]⟩ .f32) (c3 c4 : FVec Ideal ⟨2, ![3, 2048]⟩ .f32)
    (h : (⟨3, ![B, 1, 2048]⟩ : Shape).ShapeCasts ⟨2, ![B, 2048]⟩) :
    shapeCast ⟨2, ![B, 2048]⟩ (chain x c1 c2 c3 c4) h = result x c1 c2 c3 c4 := by
  funext i
  obtain ⟨b, e, rfl⟩ : ∃ (b : Fin B) (e : Fin 2048), i = ix2 b e := ⟨i 0, i 1, eq_ix2 i⟩
  exact squeeze_apply _ h b e

/-- Entry (b, e) of the result reads only batch row b of the input. -/
theorem result_rows {B' : Nat} (xb : FVec Ideal ⟨3, ![B', 7, 2048]⟩ .f32) (x : FVec Ideal ⟨3, ![B, 7, 2048]⟩ .f32)
    (c1 c2 : FVec Ideal ⟨2, ![2, 2048]⟩ .f32) (c3 c4 : FVec Ideal ⟨2, ![3, 2048]⟩ .f32) (p : Fin B') (b : Fin B) (e : Fin 2048)
    (h : ∀ s : Fin 7, xb (ix3 p s e) = x (ix3 b s e)) :
    result xb c1 c2 c3 c4 (ix2 p e) = result x c1 c2 c3 c4 (ix2 b e) :=
  chain_rows xb x c1 c2 c3 c4 p b e h (0 : Fin 1)

end Chain

end Cert.ConvChain

end
-- ==== Proof.KernelRows.lean ====
/-
  The kernel's result array is `result` of its argument arrays.

  The grid has 64 points; point t stages rows 128 t ... 128 t + 127 of X (all 7 positions, all 2048 columns),
  the four small tables whole, and writes back rows 128 t ... 128 t + 127 of the output.
  * The body's one stored value, read off its loads, is the four sliding-window layers applied to the
    staged block, the last position dropped: `result` at batch extent 128 (`payload_eq`, `out_eq`) — each
    layer by its vector-unit spelling (`vector_conv2`, `vector_conv3`).
  * Row p of the block staged at point t is row 128 t + p of X (`xblk_apply`); a table's block is the table
    (`k1blk_eq` ...). Since entry (b, e) of `result` reads only batch row b of its input (`result_rows`), what
    point t writes back is block t of `result` of the whole arrays (`flushed_eq`).
  * The 64 blocks tile the output (row i lies in block i / 128), so the array ends at `result` (`final`),
    and the frame run, read there, is `run`.
-/
import proofs.«126784_j62216896250027_1_alg».proof.Proof.ValueBlocks
import proofs.«126784_j62216896250027_1_alg».proof.Proof.LayerForms

set_option maxRecDepth 16384

noncomputable section

namespace Cert.KernelIdeal.Rows

open Cert.KernelIdeal Cert.KernelIdeal.Gen Idealize.ShloMosaic Idealize.ShloMosaic.TcCoe Idealize.SL.Sem
open Idealize.ShloMosaic.ValueIdx Cert.ConvChain
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The body's stored value -/

/-- The first two layers (7 -> 6 -> 5 positions) of the staged block. -/
theorem pay2_eq (x0 : FVec Ideal S128x7x2048 .f32) (x1 x2 : FVec Ideal S2x2048 .f32) :
    k0_pay2 x0 x1 x2 = conv2 (L := 6) (M := 5) (by decide) (conv2 (L := 7) (M := 6) (by decide) x0 x1) x2 :=
  (vector_conv2 (by decide) _ x2 (by decide) (by decide) (by decide) (by decide) (by decide) (by decide) (by decide)).trans
    (congrArg (fun y => conv2 (L := 6) (M := 5) (by decide) y x2) (vector_conv2 (by decide) x0 x1 (by decide) (by decide) (by decide) (by decide) (by decide) (by decide) (by decide)))

/-- The stored value: the two three-tap layers (5 -> 3 -> 1 positions) on top, the last position dropped. -/
theorem payload_eq (x0 : FVec Ideal S128x7x2048 .f32) (x1 x2 : FVec Ideal S2x2048 .f32) (x3 x4 : FVec Ideal S3x2048 .f32) :
    k0_pay1 (k0_pay3 x0 x1 x2 x3) (k0_pay4 x0 x1 x2) (k0_pay5 x3) x4 = result x0 x1 x2 x3 x4 :=
  (congrArg (fun v => shapeCast S128x2048 v shapeCasts_S128x1x2048_S128x2048)
    ((vector_conv3 (L := 3) (M := 1) (by decide) _ x4 (by decide) (by decide) (by decide) (by decide) (by decide) (by decide) (by decide) (by decide) (by decide)).trans
      (congrArg (fun y => conv3 (L := 3) (M := 1) (by decide) y x4)
        ((vector_conv3 (L := 5) (M := 3) (by decide) _ x3 (by decide) (by decide) (by decide) (by decide) (by decide) (by decide) (by decide) (by decide) (by decide)).trans
          (congrArg (fun y => conv3 (L := 5) (M := 3) (by decide) y x3) (pay2_eq x0 x1 x2)))))).trans
    (squeeze_chain x0 x1 x2 x3 x4 _)

/-- What the body leaves in the output's staging buffer, from the input blocks. -/
theorem out_eq (x0 : FVec Ideal S128x7x2048 .f32) (x1 x2 : FVec Ideal S2x2048 .f32) (x3 x4 : FVec Ideal S3x2048 .f32) :
    out0_5 (F := Ideal) x0 x1 x2 x3 x4 = result x0 x1 x2 x3 x4 := by
  unfold out0_5
  rw [View.canon_unit_zero hz2]
  simp only [View.ld_unit_zero (S := S128x7x2048) hz3, View.ld_unit_zero (S := S2x2048) hz2, View.ld_unit_zero (S := S3x2048) hz2]
  exact payload_eq x0 x1 x2 x3 x4

/-! ## The blocks the points stage -/

/-- The index maps over the grid: X and the output move one block of rows per point, the tables do not move. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every block of 128 output rows is some point's. -/
theorem idx_onto : ∀ q : Fin 64, ∃ t : Fin cfg0.N, win0_5.index t = ![q.val, 0] :=
  (by decide +kernel : ∀ q : Fin 64, ∃ t : Fin grid0.N, win0_5.index t = ![q.val, 0])

variable (m : (ℓ : Loc nD τ sig) → Buf (Elt Ideal) ℓ) (ρ : Dev nD → PrngReg)

/-- The argument arrays as the region finds them, at their literal types. -/
abbrev xarr (c : Dev nD) : FVec Ideal S8192x7x2048 .f32 := V m c main_arg0
abbrev k1arr (c : Dev nD) : FVec Ideal S2x2048 .f32 := V m c main_arg1
abbrev k2arr (c : Dev nD) : FVec Ideal S2x2048 .f32 := V m c main_arg2
abbrev k3arr (c : Dev nD) : FVec Ideal S3x2048 .f32 := V m c main_arg3
abbrev k4arr (c : Dev nD) : FVec Ideal S3x2048 .f32 := V m c main_arg4

/-- Row p of the block of X staged at point t is row 128 t + p of X. -/
theorem xblk_apply (c : Dev nD) (t : Fin cfg0.N) (p : Fin 128) (s : Fin 7) (e : Fin 2048) (b : Fin 8192)
    (hb : b.val = t.val * 128 + p.val) :
    (iblk m c 0 t : FVec Ideal S128x7x2048 .f32) (ix3 p s e) = xarr m c (ix3 b s e) := by
  obtain ⟨h0, h1, h2, -⟩ := idx_facts t
  unfold iblk
  rw [View.read_apply]
  show V m c main_arg0 _ = V m c main_arg0 _
  congr 1
  funext a
  apply Fin.ext
  match a with
  | ⟨0, _⟩ => show win0_0.index t (0 : Fin 3) * 128 + 1 * p.val = b.val; rw [h0, hb]; omega
  | ⟨1, _⟩ => show win0_0.index t (1 : Fin 3) * 7 + 1 * s.val = s.val; rw [h1]; omega
  | ⟨2, _⟩ => show win0_0.index t (2 : Fin 3) * 2048 + 1 * e.val = e.val; rw [h2]; omega

/-- The first table's block, at every point, is the table. -/
theorem k1blk_eq (c : Dev nD) (t : Fin cfg0.N) : (iblk m c 1 t : FVec Ideal S2x2048 .f32) = k1arr m c := by
  obtain ⟨-, -, -, h0, h1, -⟩ := idx_facts t
  funext y
  unfold iblk
  rw [View.read_apply]
  show V m c main_arg1 _ = V m c main_arg1 y
  congr 1
  funext a
  apply Fin.ext
  match a with
  | ⟨0, _⟩ => show win0_1.index t (0 : Fin 2) * 2 + 1 * (y 0).val = (y 0).val; rw [h0]; omega
  | ⟨1, _⟩ => show win0_1.index t (1 : Fin 2) * 2048 + 1 * (y 1).val = (y 1).val; rw [h1]; omega

/-- The second table's. -/
theorem k2blk_eq (c : Dev nD) (t : Fin cfg0.N) : (iblk m c 2 t : FVec Ideal S2x2048 .f32) = k2arr m c := by
  obtain ⟨-, -, -, -, -, h0, h1, -⟩ := idx_facts t
  funext y
  unfold iblk
  rw [View.read_apply]
  show V m c main_arg2 _ = V m c main_arg2 y
  congr 1
  funext a
  apply Fin.ext
  match a with
  | ⟨0, _⟩ => show win0_2.index t (0 : Fin 2) * 2 + 1 * (y 0).val = (y 0).val; rw [h0]; omega
  | ⟨1, _⟩ => show win0_2.index t (1 : Fin 2) * 2048 + 1 * (y 1).val = (y 1).val; rw [h1]; omega

/-- The third table's. -/
theorem k3blk_eq (c : Dev nD) (t : Fin cfg0.N) : (iblk m c 3 t : FVec Ideal S3x2048 .f32) = k3arr m c := by
  obtain ⟨-, -, -, -, -, -, -, h0, h1, -⟩ := idx_facts t
  funext y
  unfold iblk
  rw [View.read_apply]
  show V m c main_arg3 _ = V m c main_arg3 y
  congr 1
  funext a
  apply Fin.ext
  match a with
  | ⟨0, _⟩ => show win0_3.index t (0 : Fin 2) * 3 + 1 * (y 0).val = (y 0).val; rw [h0]; omega
  | ⟨1, _⟩ => show win0_3.index t (1 : Fin 2) * 2048 + 1 * (y 1).val = (y 1).val; rw [h1]; omega

/-- The fourth table's. -/
theorem k4blk_eq (c : Dev nD) (t : Fin cfg0.N) : (iblk m c 4 t : FVec Ideal S3x2048 .f32) = k4arr m c := by
  obtain ⟨-, -, -, -, -, -, -, -, -, h0, h1, -⟩ := idx_facts t
  funext y
  unfold iblk
  rw [View.read_apply]
  show V m c main_arg4 _ = V m c main_arg4 y
  congr 1
  funext a
  apply Fin.ext
  match a with
  | ⟨0, _⟩ => show win0_4.index t (0 : Fin 2) * 3 + 1 * (y 0).val = (y 0).val; rw [h0]; omega
  | ⟨1, _⟩ => show win0_4.index t (1 : Fin 2) * 2048 + 1 * (y 1).val = (y 1).val; rw [h1]; omega

/-! ## From the blocks to the array -/

/-- What the output array ends holding. -/
abbrev res (c : Dev nD) : FVec Ideal S8192x2048 .f32 :=
  result (xarr m c) (k1arr m c) (k2arr m c) (k3arr m c) (k4arr m c)

/-- What point t writes back is block t of `res`. -/
theorem flushed_eq (c : Dev nD) (t : Fin cfg0.N) :
    (dats m 0 c).flushed 5 t = ((cfg0.win 5).blk t).view.read (Elt Ideal) (res m c) := by
  rw [Value.flushed5 m c t, out_eq (iblk m c 0 t) (iblk m c 1 t) (iblk m c 2 t) (iblk m c 3 t) (iblk m c 4 t),
    k1blk_eq m c t, k2blk_eq m c t, k3blk_eq m c t, k4blk_eq m c t]
  obtain ⟨-, -, -, -, -, -, -, -, -, -, -, h0, h1⟩ := idx_facts t
  funext y
  obtain ⟨p, e, rfl⟩ : ∃ (p : Fin 128) (e : Fin 2048), y = ix2 p e := ⟨y 0, y 1, eq_ix2 y⟩
  have hlt : t.val * 128 + p.val < 8192 := by
    have ht : t.val < 64 := lt_of_lt_of_eq t.isLt N_0
    have hp := p.isLt
    omega
  have hemb : ((cfg0.win 5).blk t).view.emb (ix2 p e) = (ix2 (⟨t.val * 128 + p.val, hlt⟩ : Fin 8192) e : S8192x2048.Idx) := by
    funext a
    apply Fin.ext
    match a with
    | ⟨0, _⟩ => show win0_5.index t (0 : Fin 2) * 128 + 1 * p.val = t.val * 128 + p.val; rw [h0]; omega
    | ⟨1, _⟩ => show win0_5.index t (1 : Fin 2) * 2048 + 1 * e.val = e.val; rw [h1]; omega
  show result (iblk m c 0 t) (k1arr m c) (k2arr m c) (k3arr m c) (k4arr m c) (ix2 p e) = res m c (((cfg0.win 5).blk t).view.emb (ix2 p e))
  rw [hemb]
  exact result_rows _ _ _ _ _ _ p ⟨t.val * 128 + p.val, hlt⟩ e (fun s => xblk_apply m c t p s e _ rfl)

/-- An index of the output is in point t's block iff each coordinate is in the block's range on its axis. -/
theorem mem_blk (t : Fin cfg0.N) (i : S8192x2048.Idx) :
    i ∈ ((cfg0.win 5).blk t).view.set ↔ ∀ a : Fin 2, win0_5.index t a * S128x2048.size a ≤ (i a).val ∧ (i a).val < win0_5.index t a * S128x2048.size a + S128x2048.size a := by
  show i ∈ ((View.whole main_v0).slice (win0_5.rect t)).set ↔ _
  rw [View.set_slice_whole, Rect.mem_set_unit]
  exact Iff.rfl

/-- Row i of the output lies in the block of point i / 128. -/
theorem cover (i : S8192x2048.Idx) : ∃ t : Fin cfg0.N, (cfg0.win 5).flush t = true ∧ i ∈ ((cfg0.win 5).blk t).view.set := by
  have hi0 : (i 0).val < 8192 := (i 0).isLt
  have hi1 : (i 1).val < 2048 := (i 1).isLt
  obtain ⟨t, ht⟩ := idx_onto ⟨(i 0).val / 128, by omega⟩
  have q0 : win0_5.index t (0 : Fin 2) = (i 0).val / 128 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 128 ≤ (i 0).val ∧ (i 0).val < win0_5.index t (0 : Fin 2) * 128 + 128; omega
  | ⟨1, _⟩ => show win0_5.index t (1 : Fin 2) * 2048 ≤ (i 1).val ∧ (i 1).val < win0_5.index t (1 : Fin 2) * 2048 + 2048; omega

/-- The output array after the run. -/
theorem final (c : Dev nD) : (dats m 0 c).arrAt 5 cfg0.N = res m c :=
  (dats m 0 c).arrAt_eq_of_cover 5 (res m c) (fun t _ => flushed_eq m c t) cover

/-- The frame run, read: the output at `result` of the argument arrays, the arguments unchanged. -/
theorem run : θ_run defs (onTc (τ := τ) (main (F := Ideal))) ⟨m, fun _ => 0, ρ⟩ fun r => ∀ c : Dev nD,
      r.2.mem ((c : Thread nD τ).loc main_v0) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Rows

end
-- ==== Proof.RefRows.lean ====
/-
  The reference's result array is `result` of its argument arrays.

  The reference applies the same four sliding-window layers to the whole array X (batch extent 8192), each
  by the host's spelling (`host_conv2`, `host_conv3`): its run ends with the result at the operations'
  composed term, and that term, read from the outside in, is the last layer of the third of the second of
  the first, recast [8192, 1, 2048] -> [8192, 2048].
-/
import proofs.«126784_j62216896250027_1_alg».proof.Proof.Gen.ReferenceIdeal.Run
import proofs.«126784_j62216896250027_1_alg».proof.Proof.LayerForms

set_option maxRecDepth 16384

noncomputable section

namespace Cert.ReferenceIdeal.Rows

open Cert.ReferenceIdeal Cert.ReferenceIdeal.Gen Idealize.ShloMosaic Idealize.ShloMosaic.TcCoe Idealize.SL.Sem
open Idealize.ShloMosaic.ValueIdx Cert.ConvChain

variable (m : (ℓ : Loc nD τ sig) → Buf (Elt Ideal) ℓ) (ρ : Dev nD → PrngReg)

/-- The argument arrays, at their literal types. -/
abbrev xarr (c : Dev nD) : FVec Ideal S8192x7x2048 .f32 := m ((c.tc : Thread nD τ).loc main_arg0)
abbrev k1arr (c : Dev nD) : FVec Ideal S2x2048 .f32 := m ((c.tc : Thread nD τ).loc main_arg1)
abbrev k2arr (c : Dev nD) : FVec Ideal S2x2048 .f32 := m ((c.tc : Thread nD τ).loc main_arg2)
abbrev k3arr (c : Dev nD) : FVec Ideal S3x2048 .f32 := m ((c.tc : Thread nD τ).loc main_arg3)
abbrev k4arr (c : Dev nD) : FVec Ideal S3x2048 .f32 := m ((c.tc : Thread nD τ).loc main_arg4)

/-- The composed term of the reference's 71 operations is the chain of the four layers, its last position dropped. -/
theorem res_eq (c : Dev nD) :
    Value.res_main_v70 (F := Ideal) m c = result (xarr m c) (k1arr m c) (k2arr m c) (k3arr m c) (k4arr m c) :=
  (congrArg (fun v => shapeCast S8192x2048 v shapeCasts_S8192x1x2048_S8192x2048)
    ((host_conv3 (L := 3) (M := 1) (by decide) _ (k4arr m c) _ _ _ _ _ _ _ _ _).trans
      (congrArg (fun y => conv3 (L := 3) (M := 1) (by decide) y (k4arr m c))
        ((host_conv3 (L := 5) (M := 3) (by decide) _ (k3arr m c) _ _ _ _ _ _ _ _ _).trans
          (congrArg (fun y => conv3 (L := 5) (M := 3) (by decide) y (k3arr m c))
            ((host_conv2 (L := 6) (M := 5) (by decide) _ (k2arr m c) _ _ _ _ _ _ _).trans
              (congrArg (fun y => conv2 (L := 6) (M := 5) (by decide) y (k2arr m c))
                (host_conv2 (L := 7) (M := 6) (by decide) (xarr m c) (k1arr m c) _ _ _ _ _ _ _)))))))).trans
    (squeeze_chain (xarr m c) (k1arr m c) (k2arr m c) (k3arr m c) (k4arr m c) _)

/-- The reference's run, read: the result at `result` of the argument arrays, the arguments unchanged. -/
theorem run : θ_run defs (onTc (τ := τ) (main (F := Ideal))) ⟨m, fun _ => 0, ρ⟩ fun r => ∀ c : Dev nD,
      r.2.mem ((c.tc : Thread nD τ).loc main_v70) = result (xarr m c) (k1arr m c) (k2arr m c) (k3arr m c) (k4arr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (res_eq m c), (h c).2⟩) (Value.run (F := Ideal) m ρ)

end Cert.ReferenceIdeal.Rows

end
-- ==== Proof.lean ====
/-
  A chain of four depthwise sliding-window layers with tanh: the tiled kernel against the whole-array reference,
  over the extended reals.

  For X[b, s, e] (8192 x 7 x 2048) and four small tables (2, 2, 3 and 3 rows of 2048), a layer with an h-row table k is
      y[b, j, e] = tanh (x[b, j, e] * k[0, e] + ... + x[b, j + h - 1, e] * k[h - 1, e]),
  and the result is the four layers applied in a row (7 -> 6 -> 5 -> 3 -> 1 positions), the last position dropped.
  The reference does this on the whole array; the kernel does it on 64 blocks of 128 batch rows, one per grid
  point, with the products of a window added in the same left-to-right order. Entry (b, e) of the result
  depends only on batch row b of X, so block t of the reference's result is the kernel's result on block t of X;
  the 64 blocks tile the output. No law of arithmetic on the extended reals is used (the two sides are the same
  expression entry by entry), and so the inputs' finiteness is never opened.

  * Proof/Layers.lean, Proof/LayerForms.lean: a layer as one function of arrays of any batch extent; the vector
    unit's and the host's spellings of it; a layer reads only its own batch row; the chain and `result`.
  * Proof/KernelRows.lean: the kernel's run ends with its output at `result` of its argument arrays.
  * Proof/RefRows.lean: the reference's run ends with its output at `result` of its argument arrays.
  Here: the three frames, and the two runs side by side on arguments that agree.
-/
import proofs.«126784_j62216896250027_1_alg».proof.Defs
import proofs.«126784_j62216896250027_1_alg».proof.Proof.Gen.Kernel
import proofs.«126784_j62216896250027_1_alg».proof.Proof.Gen.Kernel.Skeleton
import proofs.«126784_j62216896250027_1_alg».proof.Proof.Gen.Kernel.Launch
import proofs.«126784_j62216896250027_1_alg».proof.Proof.Gen.Kernel.Points
import proofs.«126784_j62216896250027_1_alg».proof.Proof.Gen.Kernel.Frame
import proofs.«126784_j62216896250027_1_alg».proof.Proof.Gen.KernelIdeal
import proofs.«126784_j62216896250027_1_alg».proof.Proof.Gen.KernelIdeal.Skeleton
import proofs.«126784_j62216896250027_1_alg».proof.Proof.Gen.KernelIdeal.Launch
import proofs.«126784_j62216896250027_1_alg».proof.Proof.Gen.KernelIdeal.Points
import proofs.«126784_j62216896250027_1_alg».proof.Proof.Gen.KernelIdeal.Frame
import proofs.«126784_j62216896250027_1_alg».proof.Proof.Gen.ReferenceIdeal
import proofs.«126784_j62216896250027_1_alg».proof.Proof.Gen.Pre_finite_inputs
import proofs.«126784_j62216896250027_1_alg».proof.Proof.Gen.ReferenceIdeal.Run
import proofs.«126784_j62216896250027_1_alg».proof.Proof.KernelRows
import proofs.«126784_j62216896250027_1_alg».proof.Proof.RefRows
import Idealize.ShloMosaic.Adequacy
import Idealize.ShloMosaic.Init

noncomputable section

namespace Cert.Proof

open Idealize.ShloMosaic Idealize.SL.Sem Cert.ConvChain

/-- The kernel as printed runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with their output at `result` of their argument arrays, and the arguments agree. -/
theorem algebraic : Cert.algebraic_KernelIdeal_ReferenceIdeal := by
  intro m ρ m' ρ' _ hagree
  refine ⟨fun c => Cert.KernelIdeal.Rows.res m c, Cert.KernelIdeal.Rows.run m ρ, ?_⟩
  refine (θ_run Cert.ReferenceIdeal.defs _ _).mono (fun _ h c => ⟨(h c).1.trans ?_, (h c).2⟩)
    (Cert.ReferenceIdeal.Rows.run m' ρ')
  obtain ⟨h0, h1, h2, h3, h4⟩ := hagree c
  have e : result (B := 8192) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
    = result (B := 8192) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) := by
    rw [h0, h1, h2, h3, h4]
  exact e

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
